-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S256x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x2 .f32 := Host.absf main_arg4
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S128x2 : Shape := ⟨2, ![128, 2]⟩
abbrev S100000x2 : Shape := ⟨2, ![100000, 2]⟩
abbrev S10000x2 : Shape := ⟨2, ![10000, 2]⟩
abbrev S1x128 : Shape := ⟨2, ![1, 128]⟩
abbrev S1x2 : Shape := ⟨2, ![1, 2]⟩

abbrev nBuf : Space → Nat
  | .hbm => 66
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S256x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S128x2, .f32⟩
  | .hbm, ⟨64, _⟩ => ⟨S128x2, .f32⟩
  | .hbm, ⟨65, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S128, .f32⟩
  | .local _ .vmem, ⟨10, _⟩ => ⟨S128x2, .f32⟩
  | .local _ .vmem, ⟨11, _⟩ => ⟨S128x2, .f32⟩
  | .local _ .vmem, ⟨12, _⟩ => ⟨S2, .f32⟩
  | .local _ .vmem, ⟨13, _⟩ => ⟨S10000x2, .f32⟩
  | .local _ .vmem, ⟨14, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S256x2_S128x2_0_0 : S256x2.Slices ![0, 0] S128x2
  slices_S256x2_S128x2_128_0 : S256x2.Slices ![128, 0] S128x2
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x2_S10000x2_1_0_0_1_n_n_wf : DotDims.WF S10000x128 S128x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x2.size a ≤ S128x2.size a
  hwx1_4 : ∀ i : grid1.Coords, EltTy.bits .f32 = 32 ∨ (Rect.block (s := S128x2) S128x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2.size a ≤ S2.size a
  hwx1_5 : ∀ i : grid1.Coords, EltTy.bits .f32 = 32 ∨ (Rect.block (s := S2) S2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x2.size a ≤ S100000x2.size a
  hwx1_6 : ∀ i : grid1.Coords, EltTy.bits .f32 = 32 ∨ (Rect.block (s := S100000x2) S10000x2.size (cc1_transform_6 i) (hinb1_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S128x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S10000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩
abbrev S100000x2 : Shape := ⟨2, ![100000, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S256x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x256, .f32⟩
  | .hbm, ⟨70, _⟩ => ⟨S100000x2, .f32⟩
  | .hbm, ⟨71, _⟩ => ⟨S1x2, .f32⟩
  | .hbm, ⟨72, _⟩ => ⟨S100000x2, .f32⟩
  | .hbm, ⟨73, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x256_S256x2_S100000x2_1_0_0_1_n_n_wf : DotDims.WF S100000x256 S256x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.Spec.lean ====
/-
  What the two programs compute, as functions of whole arrays over the extended reals.

  `proj x w` is the product of the 100000×128 feature matrix with a 128×128 weight: entry (r, q) is
  Σ_k x(r, k) · w(k, q).

  `outOf x a b w1 w2 bf` is the classifier's two-column output from the features `x`, the aggregated messages `a`,
  the hidden bias `b`, the upper and lower halves `w1`, `w2` of the 256×2 last weight and the output bias `bf`:
  entry (r, q) is
      ( Σ_k x(r, k) · w1(k, q)  +  Σ_k max(a(r, k) + b(k), 0) · w2(k, q) )  +  bf(q).
  The zero the rectifier compares with is kept as the 32-bit word both programs print; nothing evaluates it.

  Sums are over `Fin 128`; addition and multiplication are the extended reals', where both are commutative and
  associative at the infinities too, so none of the statements about these functions asks for finite inputs.
-/
import Idealize.ShloMosaic.PureOps.Ideal
import Idealize.ShloMosaic.Lib.ValueIdx

noncomputable section

namespace Cert.Spec

open Idealize.ShloMosaic Idealize.ShloMosaic.ValueIdx

/-- Features times weight: entry (r, q) is Σ_k x(r, k) · w(k, q). -/
def proj (x : Vec Ideal ⟨2, ![100000, 128]⟩ .f32) (w : Vec Ideal ⟨2, ![128, 128]⟩ .f32) :
    Vec Ideal ⟨2, ![100000, 128]⟩ .f32 :=
  fun i => ∑ k : Fin 128, x (ix2 (⟨(i 0).val, idx2_lt0 i⟩ : Fin 100000) k) * w (ix2 k (⟨(i 1).val, idx2_lt1 i⟩ : Fin 128))

/-- `proj` at coordinates. -/
theorem proj_apply (x : Vec Ideal ⟨2, ![100000, 128]⟩ .f32) (w : Vec Ideal ⟨2, ![128, 128]⟩ .f32) (r : Fin 100000) (q : Fin 128) :
    proj x w (ix2 r q) = ∑ k : Fin 128, x (ix2 r k) * w (ix2 k q) := rfl

/-- The classifier's output: (Σ_k x(r,k)·w1(k,q) + Σ_k max(a(r,k) + b(k), 0)·w2(k,q)) + bf(q). -/
def outOf (x a : Vec Ideal ⟨2, ![100000, 128]⟩ .f32) (b : Vec Ideal ⟨1, ![128]⟩ .f32)
    (w1 w2 : Vec Ideal ⟨2, ![128, 2]⟩ .f32) (bf : Vec Ideal ⟨1, ![2]⟩ .f32) : Vec Ideal ⟨2, ![100000, 2]⟩ .f32 :=
  fun i =>
    (∑ k : Fin 128, x (ix2 (⟨(i 0).val, idx2_lt0 i⟩ : Fin 100000) k) * w1 (ix2 k (⟨(i 1).val, idx2_lt1 i⟩ : Fin 2))
      + ∑ k : Fin 128, max (a (ix2 (⟨(i 0).val, idx2_lt0 i⟩ : Fin 100000) k) + b (ix1 k)) (Ideal.ofBits .f32 0x00000000#32)
          * w2 (ix2 k (⟨(i 1).val, idx2_lt1 i⟩ : Fin 2)))
    + bf (ix1 (⟨(i 1).val, idx2_lt1 i⟩ : Fin 2))

/-- `outOf` at coordinates. -/
theorem outOf_apply (x a : Vec Ideal ⟨2, ![100000, 128]⟩ .f32) (b : Vec Ideal ⟨1, ![128]⟩ .f32)
    (w1 w2 : Vec Ideal ⟨2, ![128, 2]⟩ .f32) (bf : Vec Ideal ⟨1, ![2]⟩ .f32) (r : Fin 100000) (q : Fin 2) :
    outOf x a b w1 w2 bf (ix2 r q)
      = (∑ k : Fin 128, x (ix2 r k) * w1 (ix2 k q)
          + ∑ k : Fin 128, max (a (ix2 r k) + b (ix1 k)) (Ideal.ofBits .f32 0x00000000#32) * w2 (ix2 k q))
        + bf (ix1 q) := rfl

end Cert.Spec

end
-- ==== Proof.LibSumSplit.lean ====
/-
  A sum over `Fin 256` is the sum over its lower half plus the sum over its upper half, in any additive
  commutative monoid (in particular the extended reals, where addition is commutative and associative even at the
  infinities, so no finiteness is asked). Stated with the two halves' indices written as plain bounded naturals,
  `k` and `128 + k`, which is how a concatenation of two blocks of 128 along an axis is read at an index.
-/
import Mathlib.Algebra.BigOperators.Fin

namespace Cert.LibSumSplit

/-- `∑_{k<256} f k = ∑_{k<128} f k + ∑_{k<128} f (128 + k)`. -/
theorem sum_halves_256 {M : Type*} [AddCommMonoid M] (f : Fin 256 → M) :
    ∑ k : Fin 256, f k
      = ∑ k : Fin 128, f ⟨k.val, Nat.lt_of_lt_of_le k.isLt (by decide)⟩
        + ∑ k : Fin 128, f ⟨128 + k.val, by have := k.isLt; omega⟩ :=
  Fin.sum_univ_add (a := 128) (b := 128) f

end Cert.LibSumSplit
-- ==== Proof.RefValue.lean ====
/-
  The reference's result as the specification's function of its arguments.

  The reference computes out = concat[x, h] · Wfc + bfc with h = max(agg + b1, 0), the concatenation along the
  feature axis (x in columns 0…127, h in columns 128…255), and agg the scatter-add, over the edge list with self
  loops, of the degree-normalised rows of x · W1. Read at an index (r, q):

      out(r, q) = Σ_{k<256} cat(r, k) · Wfc(k, q) + bfc(q)
                = ( Σ_{k<128} x(r, k) · Wfc(k, q)  +  Σ_{k<128} h(r, k) · Wfc(128 + k, q) ) + bfc(q),

  the sum over 256 split into its lower and upper 128: column k of the concatenation is x's column k below 128 and
  h's column k − 128 from 128 on. Splitting a finite sum needs only that addition is commutative and associative,
  which holds on the extended reals at the infinities too; nothing here asks for finite inputs.

  The aggregate is NOT opened: `agg xw e` names it as one function of the projected features `xw` and the edge list
  `e`. Both programs apply that same chain of gathers, products and scatter-adds, so the comparison only ever needs
  that the two programs feed it the same `xw` — and x · W1 is the specification's `proj`.
-/
import proofs.«112632_j16999480558341_1_alg».proof.Proof.RefRead
import proofs.«112632_j16999480558341_1_alg».proof.Proof.Spec
import proofs.«112632_j16999480558341_1_alg».proof.Proof.LibSumSplit
import Idealize.ShloMosaic.Lib.Pipeline.Value
import Idealize.ShloMosaic.Lib.ValueIdx

noncomputable section

namespace Cert.ReferenceIdeal.RefVal

open Cert.ReferenceIdeal Cert.ReferenceIdeal.Gen Cert.ReferenceIdeal.ReadP
open Idealize.ShloMosaic Idealize.ShloMosaic.TcCoe Idealize.ShloMosaic.ValueIdx
open Cert.Spec

/-- The aggregated messages as ONE function of the projected features `xw` and the edge list `e`: each edge
    (and each node's self loop) gathers its source's row of `xw`, scales it by the two endpoints' inverse root
    degrees, and the rows are scatter-added at the targets. Its inside is never opened. -/
def agg (xw : FVec Ideal S100000x128 .f32) (e : (⟨S2x1600000, .i32⟩ : BufTy).Contents (Elt Ideal)) :
    FVec Ideal S100000x128 .f32 :=
  Host.scatterAdd (F := Ideal) scatter_S100000x128_S1700000x1_S1700000x128_1_0_0_1 (val_main_v41 (F := Ideal)) (val_main_v42 (F := Ideal) e)
    (mulf (F := Ideal) (Host.gather gather_S100000x128_S1700000x1_S1700000x128_1_0_n_n_0_1_1128 xw (val_main_v36 (F := Ideal) e))
      (val_main_v39 (F := Ideal) e))

/-- The reference's aggregate is `agg` of its own product x · W1. -/
theorem v43_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v43 (F := Ideal) x0 x1 x2 = agg (val_main_v30 (F := Ideal) x0 x2) x1 := rfl

/-- The reference's product x · W1 is the specification's `proj`. -/
theorem v30_eq (x0 : (⟨S100000x128, .f32⟩ : BufTy).Contents (Elt Ideal)) (x2 : (⟨S128x128, .f32⟩ : BufTy).Contents (Elt Ideal)) :
    val_main_v30 (F := Ideal) x0 x2 = proj x0 x2 := by
  funext i
  obtain ⟨r, q, rfl⟩ : ∃ (r : Fin 100000) (q : Fin 128), i = ix2 r q := ⟨i 0, i 1, eq_ix2 i⟩
  rw [val_main_v30_apply, proj_apply]
  refine Finset.sum_congr rfl fun k _ => congrArg₂ (· * ·) (congrArg x0 ?_) (congrArg x2 ?_)
  · funext a; match a with | ⟨0, _⟩ => rfl | ⟨1, _⟩ => rfl
  · funext a; match a with | ⟨0, _⟩ => rfl | ⟨1, _⟩ => rfl

/-- Column k < 128 of the concatenation is the features' column k. -/
theorem cat_lo (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (r : Fin 100000) (k : Fin 128) :
    val_main_v48 (F := Ideal) x0 x1 x2 x3 (ix2 r (⟨k.val, Nat.lt_of_lt_of_le k.isLt (by decide)⟩ : Fin 256)) = x0 (ix2 r k) := by
  unfold val_main_v48
  exact concatenate_pair_apply_left 1 x0 _ concatenates_S100000x128_S100000x128_S100000x256_d1 _ rfl (ix2 r k)
    (fun b => match b with | ⟨0, _⟩ => rfl | ⟨1, _⟩ => rfl)

/-- Column 128 + k of the concatenation is the rectified (aggregate + bias) at column k. -/
theorem cat_hi (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (r : Fin 100000) (k : Fin 128) :
    val_main_v48 (F := Ideal) x0 x1 x2 x3 (ix2 r (⟨128 + k.val, by have := k.isLt; omega⟩ : Fin 256))
      = max (val_main_v43 (F := Ideal) x0 x1 x2 (ix2 r k) + x3 (ix1 k)) (Ideal.ofBits .f32 0x00000000#32) := by
  unfold val_main_v48
  refine (concatenate_pair_apply_right 1 x0 (val_main_v47 (F := Ideal) x0 x1 x2 x3) concatenates_S100000x128_S100000x128_S100000x256_d1
    (ix2 r (⟨128 + k.val, by have := k.isLt; omega⟩ : Fin 256)) rfl rfl (ix2 r k)
    (by intro b hb; match b, hb with | ⟨0, _⟩, _ => rfl | ⟨1, _⟩, hb => exact absurd rfl hb)
    (by show k.val + 128 = 128 + k.val; omega)).trans ?_
  rw [val_main_v47_apply, val_main_v46_apply, val_main_v45_apply, val_main_v44_apply, val_main_call1_v0_apply,
    val_main_call1_cst_apply]
  show max (val_main_v43 (F := Ideal) x0 x1 x2 (ix2 r k) + x3 (idx_main_v44 (idx_main_v45 (ix2 r k)))) (Ideal.ofBits .f32 0x00000000#32) = _
  refine congrArg (fun z => max (val_main_v43 (F := Ideal) x0 x1 x2 (ix2 r k) + x3 z) (Ideal.ofBits .f32 0x00000000#32)) ?_
  funext a; match a with | ⟨0, _⟩ => rfl

/-- THE REFERENCE'S RESULT is the specification's output of its arguments, for any two 128×2 arrays that are the
    upper and the lower half of the last weight. -/
theorem out_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S256x2, .f32⟩ : BufTy).Contents (Elt Ideal)) (x5 : (⟨S2, .f32⟩ : BufTy).Contents (Elt Ideal))
    (w1 w2 : Vec Ideal ⟨2, ![128, 2]⟩ .f32)
    (hw1 : ∀ (k : Fin 128) (q : Fin 2), w1 (ix2 k q) = x4 (ix2 (⟨k.val, Nat.lt_of_lt_of_le k.isLt (by decide)⟩ : Fin 256) q))
    (hw2 : ∀ (k : Fin 128) (q : Fin 2), w2 (ix2 k q) = x4 (ix2 (⟨128 + k.val, by have := k.isLt; omega⟩ : Fin 256) q)) :
    val_main_v52 (F := Ideal) x0 x1 x2 x3 x4 x5 = outOf x0 (agg (proj x0 x2) x1) x3 w1 w2 x5 := by
  rw [← v30_eq, ← v43_eq]
  funext i
  obtain ⟨r, q, rfl⟩ : ∃ (r : Fin 100000) (q : Fin 2), i = ix2 r q := ⟨i 0, i 1, eq_ix2 i⟩
  rw [outOf_apply, val_main_v52_apply, val_main_v49_apply, val_main_v51_apply, val_main_v50_apply]
  show (∑ k : Fin 256, val_main_v48 (F := Ideal) x0 x1 x2 x3 (lidx_main_v49 (ix2 r q) k) * x4 (ridx_main_v49 (ix2 r q) k))
      + x5 (idx_main_v50 (idx_main_v51 (ix2 r q))) = _
  refine congrArg₂ (· + ·) ?_ (congrArg x5 (funext fun a => match a with | ⟨0, _⟩ => rfl))
  rw [Cert.LibSumSplit.sum_halves_256]
  refine congrArg₂ (· + ·) (Finset.sum_congr rfl fun k _ => ?_) (Finset.sum_congr rfl fun k _ => ?_)
  · rw [hw1]
    refine congrArg₂ (· * ·) ?_ (congrArg x4 ?_)
    · refine Eq.trans (congrArg (val_main_v48 (F := Ideal) x0 x1 x2 x3) ?_) (cat_lo x0 x1 x2 x3 r k)
      funext a; match a with | ⟨0, _⟩ => rfl | ⟨1, _⟩ => rfl
    · funext a; match a with | ⟨0, _⟩ => rfl | ⟨1, _⟩ => rfl
  · rw [hw2]
    refine congrArg₂ (· * ·) ?_ (congrArg x4 ?_)
    · refine Eq.trans (congrArg (val_main_v48 (F := Ideal) x0 x1 x2 x3) ?_) (cat_hi x0 x1 x2 x3 r k)
      funext a; match a with | ⟨0, _⟩ => rfl | ⟨1, _⟩ => rfl
    · funext a; match a with | ⟨0, _⟩ => rfl | ⟨1, _⟩ => rfl

end Cert.ReferenceIdeal.RefVal

end
-- ==== Proof.Payload.lean ====
/-
  What each kernel body stores, at block coordinates, over the extended reals.

  Region 0's body stores the product of a 10000×128 block of rows with the whole 128×128 weight: entry (p, q) is
  Σ_k x(p, k) · w(k, q) — the narrowing of both operands to bf16 is the identity on extended reals and the
  accumulator is the zero splat, so only the contraction remains.

  Region 1's body stores, at (p, q),
      ( Σ_k x(p, k) · w₁(k, q)  +  Σ_k max(a(p, k) + b(k), 0) · w₂(k, q) )  +  β(q):
  the block of features against the upper half of the last weight, the rectified (aggregate + bias) against the
  lower half, then the output bias, a row broadcast down the block. The zero the rectifier compares with is kept as
  the word it is printed as; no law here evaluates it.

  Both contractions are over one axis of extent 128: the contraction index is re-indexed by its single coordinate
  and the two operand indices are read off the dimension numbers axis by axis.
-/
import proofs.«112632_j16999480558341_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The operand indices of the two contractions, axis by axis -/

theorem lhsA_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsA_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsA_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsA_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhsB_0 (i : S10000x2.Idx) (q : dot_S10000x128_S128x2_S10000x2_1_0_0_1_n_n.contr.Idx) :
    (dot_S10000x128_S128x2_S10000x2_1_0_0_1_n_n.lhsIdx i q 0).val = (i 0).val := by
  unfold DotDims.lhsIdx
  rw [dif_neg (show ¬(0 : Fin S10000x128.rank) ∈ dot_S10000x128_S128x2_S10000x2_1_0_0_1_n_n.lhsBatch by decide), dif_pos (show (0 : Fin S10000x128.rank) ∈ dot_S10000x128_S128x2_S10000x2_1_0_0_1_n_n.lhsNonContracting by decide)]
  rfl
theorem lhsB_1 (i : S10000x2.Idx) (q : dot_S10000x128_S128x2_S10000x2_1_0_0_1_n_n.contr.Idx) :
    (dot_S10000x128_S128x2_S10000x2_1_0_0_1_n_n.lhsIdx i q 1).val = (q ⟨0, by decide⟩).val :=
  dot_S10000x128_S128x2_S10000x2_1_0_0_1_n_n.lhsIdx_val_of_single rfl i q
theorem rhsB_0 (i : S10000x2.Idx) (q : dot_S10000x128_S128x2_S10000x2_1_0_0_1_n_n.contr.Idx) :
    (dot_S10000x128_S128x2_S10000x2_1_0_0_1_n_n.rhsIdx i q 0).val = (q ⟨0, by decide⟩).val :=
  dot_S10000x128_S128x2_S10000x2_1_0_0_1_n_n.rhsIdx_val_of_single rfl i q
theorem rhsB_1 (i : S10000x2.Idx) (q : dot_S10000x128_S128x2_S10000x2_1_0_0_1_n_n.contr.Idx) :
    (dot_S10000x128_S128x2_S10000x2_1_0_0_1_n_n.rhsIdx i q 1).val = (i 1).val := by
  unfold DotDims.rhsIdx
  rw [dif_neg (show ¬(1 : Fin S128x2.rank) ∈ dot_S10000x128_S128x2_S10000x2_1_0_0_1_n_n.rhsBatch by decide), dif_pos (show (1 : Fin S128x2.rank) ∈ dot_S10000x128_S128x2_S10000x2_1_0_0_1_n_n.rhsNonContracting by decide)]
  rfl

/-! ## A product into the zero accumulator is the plain sum over the contracted axis -/

/-- Rows block × square weight: entry (p, q) is Σ_k a(p, k) · b(k, q). -/
theorem mmA_apply (a : FVec Ideal S10000x128 .bf16) (b : FVec Ideal S128x128 .bf16) (p : Fin 10000) (q : Fin 128) :
    FloatOps.matmul dot_S10000x128_S128x128_S10000x128_1_0_0_1_n_n none a b (constant S10000x128 .f32 0x00000000#32) (ix2 p q)
      = ∑ k : Fin 128, a (ix2 p k) * b (ix2 k q) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- Rows block × two-column weight: entry (p, q) is Σ_k a(p, k) · b(k, q). -/
theorem mmB_apply (a : FVec Ideal S10000x128 .bf16) (b : FVec Ideal S128x2 .bf16) (p : Fin 10000) (q : Fin 2) :
    FloatOps.matmul dot_S10000x128_S128x2_S10000x2_1_0_0_1_n_n none a b (constant S10000x2 .f32 0x00000000#32) (ix2 p q)
      = ∑ k : Fin 128, a (ix2 p k) * b (ix2 k q) := by
  rw [Ideal.matmul_constant_zero_apply, ← Equiv.sum_comp (ValueIdx.contrEquiv1 dot_S10000x128_S128x2_S10000x2_1_0_0_1_n_n 128 rfl rfl).symm]
  refine Finset.sum_congr rfl fun k _ => ?_
  have hk := ValueIdx.contrEquiv1_symm_val dot_S10000x128_S128x2_S10000x2_1_0_0_1_n_n 128 rfl rfl k
  have el : dot_S10000x128_S128x2_S10000x2_1_0_0_1_n_n.lhsIdx (ix2 p q) ((ValueIdx.contrEquiv1 dot_S10000x128_S128x2_S10000x2_1_0_0_1_n_n 128 rfl rfl).symm k) = ix2 p k := funext fun a => Fin.ext (by
    match a with
    | ⟨0, _⟩ => exact lhsB_0 _ _
    | ⟨1, _⟩ => exact (lhsB_1 _ _).trans hk)
  have er : dot_S10000x128_S128x2_S10000x2_1_0_0_1_n_n.rhsIdx (ix2 p q) ((ValueIdx.contrEquiv1 dot_S10000x128_S128x2_S10000x2_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The stored values -/

/-- Region 0 stores Σ_k x(p, k) · w(k, q). -/
theorem pay0_apply (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  exact mmA_apply _ _ p q

/-- The rectified (aggregate + bias) at (p, k): the bias is a vector laid as one row and broadcast down the block. -/
theorem relu_apply (a : Vec Ideal S10000x128 .f32) (b : Vec Ideal S128 .f32) (p : Fin 10000) (k : Fin 128) :
    maximumf (F := Ideal) (addf (shapeCast S10000x128 a shapeCasts_S10000x128_S10000x128)
        (broadcastTo S10000x128 (shapeCast S1x128 b shapeCasts_S128_S1x128) broadcasts_S1x128_S10000x128))
      (broadcast S10000x128 (Scalar.ofBits (F := Ideal) .f32 0x00000000#32)) (ix2 p k)
      = max (a (ix2 p k) + b (ix1 k)) (Ideal.ofBits .f32 0x00000000#32) := by
  show max (shapeCast S10000x128 a shapeCasts_S10000x128_S10000x128 (ix2 p k)
      + broadcastTo S10000x128 (shapeCast S1x128 b shapeCasts_S128_S1x128) broadcasts_S1x128_S10000x128 (ix2 p k)) _ = _
  rw [shapeCast_self, broadcastTo_1b_ab_apply, shapeCast_a_1a_apply]
  rfl

/-- Region 1 stores (Σ_k x(p,k)·w₁(k,q) + Σ_k max(a(p,k) + b(k), 0)·w₂(k,q)) + β(q). -/
theorem pay1_apply (a : Vec Ideal S10000x128 .f32) (b : Vec Ideal S128 .f32) (x : Vec Ideal S10000x128 .f32)
    (w1 w2 : Vec Ideal S128x2 .f32) (bf : Vec Ideal S2 .f32) (p : Fin 10000) (q : Fin 2) :
    k1_pay1 (F := Ideal) a b x w1 w2 bf (ix2 p q)
      = (∑ k : Fin 128, x (ix2 p k) * w1 (ix2 k q)
          + ∑ k : Fin 128, max (a (ix2 p k) + b (ix1 k)) (Ideal.ofBits .f32 0x00000000#32) * w2 (ix2 k q))
        + bf (ix1 q) := by
  unfold k1_pay1
  refine congrArg₂ (· + ·) (congrArg₂ (· + ·) ?_ ?_) ?_
  · refine (mmB_apply _ _ p q).trans (Finset.sum_congr rfl fun k _ => ?_)
    show x (ix2 p k) * shapeCast S128x2 w1 shapeCasts_S128x2_S128x2 (ix2 k q) = _
    rw [shapeCast_self]
  · refine (mmB_apply _ _ p q).trans (Finset.sum_congr rfl fun k _ => ?_)
    show maximumf (F := Ideal) _ _ (ix2 p k) * shapeCast S128x2 w2 shapeCasts_S128x2_S128x2 (ix2 k q) = _
    rw [relu_apply, shapeCast_self]
  · exact (broadcastTo_1b_ab_apply _ _ p q).trans (shapeCast_a_1a_apply bf _ 0 q)

end Cert.KernelIdeal.Pay

end
-- ==== Proof.Region0Value.lean ====
/-
  Region 0 as one function of the arrays it is entered with.

  The first kernel multiplies the feature matrix, cut into ten blocks of 10000 rows, with the whole 128×128 weight.
  Point `t` of its grid reads rows 10000·t … 10000·t + 9999 of the features and the entire weight, and writes the
  product back to the same rows of its output. The ten row blocks tile the 100000 rows, so after the region the
  output array holds, at (r, q), the sum Σ_k x(r, k) · w(k, q) of the WHOLE arrays: the tiling is invisible.
-/
import proofs.«112632_j16999480558341_1_alg».proof.Proof.Gen.KernelIdeal.Frame
import proofs.«112632_j16999480558341_1_alg».proof.Proof.Payload
import proofs.«112632_j16999480558341_1_alg».proof.Proof.Spec

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

open Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the features' and the output's row block is the point's own
    number, every other block index is zero (the weight is one block; the column axis is never cut). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product. -/
theorem flushed0 (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx0 t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
      = proj (V c main_arg0) (V c main_arg2) (((cfg0.win 2).blk t).view.emb (ix2 p q))
  refine (Pay.pay0_apply (iblk0 V c 0 t) (iblk0 V c 1 t) p q).trans ?_
  unfold proj
  refine Finset.sum_congr rfl fun k _ => congrArg₂ (· * ·) ?_ ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · show V c main_arg2 (((cfg0.win 1).blk t).view.emb (ix2 k q)) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every row of the output lies in the block of the point numbered (row / 10000). -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have ht : (i 0).val / 10000 < cfg0.N := by show _ < grid0.N; rw [N_0]; omega
  obtain ⟨e0, e1, e2, e3, e4, e5⟩ := idx0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- THE OUTPUT ARRAY after region 0: the whole product of the arrays the region was entered with. -/
theorem final0 (c : Dev nD) :
    (dat0 V c).arrAt 2 cfg0.N = proj (V c main_arg0) (V c main_arg2) :=
  (dat0 V c).arrAt_eq_of_cover 2 (proj (V c main_arg0) (V c main_arg2)) (fun t _ => flushed0 V c t) cover0

end Cert.KernelIdeal.Val

end
-- ==== Proof.Region1Value.lean ====
/-
  Region 1 as one function of the arrays it is entered with.

  The second kernel, at grid point `t`, reads rows 10000·t … 10000·t + 9999 of the features x and of the aggregate
  a, and the whole of the hidden bias b, of the two halves w₁, w₂ of the last weight and of the output bias β, and
  writes to the same rows of its two-column output
      ( Σ_k x(r, k) · w₁(k, q)  +  Σ_k max(a(r, k) + b(k), 0) · w₂(k, q) )  +  β(q).
  The ten row blocks tile the 100000 rows, so after the region the output array holds that expression of the WHOLE
  arrays at every (r, q).
-/
import proofs.«112632_j16999480558341_1_alg».proof.Proof.Gen.KernelIdeal.Frame
import proofs.«112632_j16999480558341_1_alg».proof.Proof.Payload
import proofs.«112632_j16999480558341_1_alg».proof.Proof.Spec

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

open Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window's block sits at grid point `t`: the features', the aggregate's and the output's row block is
    the point's own number; every other block index is zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- WHAT POINT `t` WRITES BACK is block `t` of the whole output. -/
theorem flushed1 (c : Dev nD) (t : Fin cfg1.N) :
    (dat1 V c).flushed 6 t = ((cfg1.win 6).blk t).view.read (Elt Ideal)
      (outOf (V c main_arg0) (V c main_v43) (V c main_arg3) (V c main_v44) (V c main_v45) (V c main_arg5)) := by
  show (cfg1.win 6).cut (grid1.coords t) ((dat1 V c).after 6 t) = _
  rw [after1_6]
  unfold out1_6
  rw [View.canon_unit_zero hz2]
  simp only [View.ld_unit_zero (S := S10000x128) hz2, View.ld_unit_zero (S := S128x2) hz2,
    View.ld_unit_zero (S := S128) hz1, View.ld_unit_zero (S := S2) hz1]
  obtain ⟨e00, e01, e10, e11, e2, e30, e31, e40, e41, e5, e60, e61⟩ := idx1 t
  funext j
  obtain ⟨p, q, rfl⟩ : ∃ (p : Fin 10000) (q : Fin 2), j = ix2 p q := ⟨j 0, j 1, eq_ix2 j⟩
  show k1_pay1 (iblk1 V c 1 t) (iblk1 V c 2 t) (iblk1 V c 0 t) (iblk1 V c 3 t) (iblk1 V c 4 t) (iblk1 V c 5 t) (ix2 p q)
      = outOf (V c main_arg0) (V c main_v43) (V c main_arg3) (V c main_v44) (V c main_v45) (V c main_arg5)
          (((cfg1.win 6).blk t).view.emb (ix2 p q))
  refine (Pay.pay1_apply (iblk1 V c 1 t) (iblk1 V c 2 t) (iblk1 V c 0 t) (iblk1 V c 3 t) (iblk1 V c 4 t) (iblk1 V c 5 t) p q).trans ?_
  unfold outOf
  refine congrArg₂ (· + ·) (congrArg₂ (· + ·)
    (Finset.sum_congr rfl fun k _ => congrArg₂ (· * ·) ?_ ?_)
    (Finset.sum_congr rfl fun k _ => congrArg₂ (· * ·) (congrArg₂ max (congrArg₂ (· + ·) ?_ ?_) rfl) ?_)) ?_
  · show V c main_arg0 (((cfg1.win 0).blk t).view.emb (ix2 p k)) = V c main_arg0 _
    refine congrArg (V c main_arg0) (funext fun a => Fin.ext ?_)
    match a with
    | ⟨0, _⟩ => show win1_0.index t (0 : Fin 2) * 10000 + 1 * p.val = win1_6.index t (0 : Fin 2) * 10000 + 1 * p.val; omega
    | ⟨1, _⟩ => show win1_0.index t (1 : Fin 2) * 128 + 1 * k.val = k.val; omega
  · show V c main_v44 (((cfg1.win 3).blk t).view.emb (ix2 k q)) = V c main_v44 _
    refine congrArg (V c main_v44) (funext fun a => Fin.ext ?_)
    match a with
    | ⟨0, _⟩ => show win1_3.index t (0 : Fin 2) * 128 + 1 * k.val = k.val; omega
    | ⟨1, _⟩ => show win1_3.index t (1 : Fin 2) * 2 + 1 * q.val = win1_6.index t (1 : Fin 2) * 2 + 1 * q.val; omega
  · show V c main_v43 (((cfg1.win 1).blk t).view.emb (ix2 p k)) = V c main_v43 _
    refine congrArg (V c main_v43) (funext fun a => Fin.ext ?_)
    match a with
    | ⟨0, _⟩ => show win1_1.index t (0 : Fin 2) * 10000 + 1 * p.val = win1_6.index t (0 : Fin 2) * 10000 + 1 * p.val; omega
    | ⟨1, _⟩ => show win1_1.index t (1 : Fin 2) * 128 + 1 * k.val = k.val; omega
  · show V c main_arg3 (((cfg1.win 2).blk t).view.emb (ix1 k)) = V c main_arg3 _
    refine congrArg (V c main_arg3) (funext fun a => Fin.ext ?_)
    match a with
    | ⟨0, _⟩ => show win1_2.index t (0 : Fin 1) * 128 + 1 * k.val = k.val; omega
  · show V c main_v45 (((cfg1.win 4).blk t).view.emb (ix2 k q)) = V c main_v45 _
    refine congrArg (V c main_v45) (funext fun a => Fin.ext ?_)
    match a with
    | ⟨0, _⟩ => show win1_4.index t (0 : Fin 2) * 128 + 1 * k.val = k.val; omega
    | ⟨1, _⟩ => show win1_4.index t (1 : Fin 2) * 2 + 1 * q.val = win1_6.index t (1 : Fin 2) * 2 + 1 * q.val; omega
  · show V c main_arg5 (((cfg1.win 5).blk t).view.emb (ix1 q)) = V c main_arg5 _
    refine congrArg (V c main_arg5) (funext fun a => Fin.ext ?_)
    match a with
    | ⟨0, _⟩ => show win1_5.index t (0 : Fin 1) * 2 + 1 * q.val = win1_6.index t (1 : Fin 2) * 2 + 1 * q.val; omega

/-- An index of the output array is in point `t`'s block iff each coordinate is in the block's range on its axis. -/
theorem mem_blk1 (t : Fin cfg1.N) (i : S100000x2.Idx) :
    i ∈ ((cfg1.win 6).blk t).view.set ↔ ∀ a : Fin 2, win1_6.index t a * S10000x2.size a ≤ (i a).val ∧ (i a).val < win1_6.index t a * S10000x2.size a + S10000x2.size a := by
  show i ∈ ((View.whole main_v46).slice (win1_6.rect t)).set ↔ _
  rw [View.set_slice_whole, Rect.mem_set_unit]
  exact Iff.rfl

/-- Every row of the output lies in the block of the point numbered (row / 10000). -/
theorem cover1 (i : S100000x2.Idx) :
    ∃ t : Fin cfg1.N, (cfg1.win 6).flush t = true ∧ i ∈ ((cfg1.win 6).blk t).view.set := by
  have hi0 : (i 0).val < 100000 := idx2_lt0 i
  have hi1 : (i 1).val < 2 := idx2_lt1 i
  have ht : (i 0).val / 10000 < cfg1.N := by show _ < grid1.N; rw [N_1]; omega
  obtain ⟨e00, e01, e10, e11, e2, e30, e31, e40, e41, e5, e60, e61⟩ := idx1 ⟨(i 0).val / 10000, ht⟩
  refine ⟨⟨(i 0).val / 10000, ht⟩, flush1_6 _, ?_⟩
  rw [mem_blk1]
  intro a
  match a with
  | ⟨0, _⟩ =>
    show win1_6.index ⟨(i 0).val / 10000, ht⟩ (0 : Fin 2) * 10000 ≤ (i 0).val ∧ (i 0).val < win1_6.index ⟨(i 0).val / 10000, ht⟩ (0 : Fin 2) * 10000 + 10000
    rw [e60]; show (i 0).val / 10000 * 10000 ≤ (i 0).val ∧ (i 0).val < (i 0).val / 10000 * 10000 + 10000; omega
  | ⟨1, _⟩ =>
    show win1_6.index ⟨(i 0).val / 10000, ht⟩ (1 : Fin 2) * 2 ≤ (i 1).val ∧ (i 1).val < win1_6.index ⟨(i 0).val / 10000, ht⟩ (1 : Fin 2) * 2 + 2
    rw [e61]; omega

/-- THE OUTPUT ARRAY after region 1: the classifier's output of the arrays the region was entered with. -/
theorem final1 (c : Dev nD) :
    (dat1 V c).arrAt 6 cfg1.N
      = outOf (V c main_arg0) (V c main_v43) (V c main_arg3) (V c main_v44) (V c main_v45) (V c main_arg5) :=
  (dat1 V c).arrAt_eq_of_cover 6 _ (fun t _ => flushed1 V c t) cover1

end Cert.KernelIdeal.Val

end
-- ==== Proof.HostChain.lean ====
/-
  What each region of the kernel's program finds in its arrays, as functions of the launch memory.

  The program runs: a first stretch of host operations (the edge list with self loops, the degrees, the
  normalisation per edge), region 0 (the product x · W1), a second stretch (gather the product's rows by source,
  scale, scatter-add by target: the aggregate; and the two halves of the last weight), region 1 (the classifier).

  No host operation and no region overwrites an argument, so wherever an argument is read it holds its launch
  contents. Region 0's output holds the whole product (`final0`). The second stretch's aggregate is the SAME chain
  of operations the reference applies, here applied to region 0's output: it is stated as the reference-side
  function `agg` of that output and the edge list, and never opened. The two halves of the last weight are the
  slices of rows 0…127 and 128…255.
-/
import proofs.«112632_j16999480558341_1_alg».proof.Proof.Gen.KernelIdeal.Frame
import proofs.«112632_j16999480558341_1_alg».proof.Proof.Region0Value
import proofs.«112632_j16999480558341_1_alg».proof.Proof.Region1Value
import proofs.«112632_j16999480558341_1_alg».proof.Proof.RefValue
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo
open Cert.Spec

variable (m : (ℓ : Loc nD τ sig) → Buf (Elt Ideal) ℓ) (ρ : Dev nD → PrngReg)

/-! ## Region 0's entry: the first stretch leaves the arguments alone -/

theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results

theorem V3_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results

/-- After region 0 its output array holds the whole product of the launch features and weight. -/
theorem V4_v30 (c : Dev nD) :
    V4 m ρ c main_v30 = proj (m ((c : Thread nD τ).loc main_arg0)) (m ((c : Thread nD τ).loc main_arg2)) := by
  refine (W4_arr m ρ c 2).trans ((final0 (V3 m ρ) c).trans ?_)
  rw [V3_arg0, V3_arg2]

/-! ## The first stretch's results that the second stretch reads: region 0 does not touch them -/

theorem W4_v3 (c : Dev nD) :
    W4 m ρ c (Proc.devRef .tc main_v3) = Cert.ReferenceIdeal.ReadP.val_main_v3 (F := Ideal) (m ((c : Thread nD τ).loc main_arg1)) := by
  rw [W4_of_ne m ρ c main_v3 (by decide)]
  show StableHlo.after hostOps0_2 (StableHlo.after hostOps0_1 (StableHlo.after hostOps0 (W0 m ρ c))) (Proc.devRef .tc main_v3) = _
  after_results
  rfl

theorem W4_v6 (c : Dev nD) :
    W4 m ρ c (Proc.devRef .tc main_v6) = Cert.ReferenceIdeal.ReadP.val_main_v6 (F := Ideal) (m ((c : Thread nD τ).loc main_arg1)) := by
  rw [W4_of_ne m ρ c main_v6 (by decide)]
  show StableHlo.after hostOps0_2 (StableHlo.after hostOps0_1 (StableHlo.after hostOps0 (W0 m ρ c))) (Proc.devRef .tc main_v6) = _
  after_results
  rfl

section AnyFamily
variable {F : FTy → Type} [FloatOps F] (mF : (ℓ : Loc nD τ sig) → Buf (Elt F) ℓ)

set_option maxHeartbeats 4000000 in
/-- The per-edge normalisation, at any float family: the two programs' chains are the same term, operation by
    operation, so the comparison never looks inside an operation. -/
theorem W4_v29_any (c : Dev nD) :
    W4 mF ρ c (Proc.devRef .tc main_v29) = Cert.ReferenceIdeal.ReadP.val_main_v29 (F := F) (mF ((c : Thread nD τ).loc main_arg1)) := by
  rw [W4_of_ne mF ρ c main_v29 (by decide)]
  show StableHlo.after hostOps0_2 (StableHlo.after hostOps0_1 (StableHlo.after hostOps0 (W0 mF ρ c))) (Proc.devRef .tc main_v29) = _
  after_results_simp
  rfl

end AnyFamily

theorem W4_v29 (c : Dev nD) :
    W4 m ρ c (Proc.devRef .tc main_v29) = Cert.ReferenceIdeal.ReadP.val_main_v29 (F := Ideal) (m ((c : Thread nD τ).loc main_arg1)) :=
  W4_v29_any ρ m c

theorem W4_arg4 (c : Dev nD) : W4 m ρ c (Proc.devRef .tc main_arg4) = m ((c : Thread nD τ).loc main_arg4) := by
  rw [W4_of_ne m ρ c main_arg4 (by decide)]
  show StableHlo.after hostOps0_2 (StableHlo.after hostOps0_1 (StableHlo.after hostOps0 (W0 m ρ c))) (Proc.devRef .tc main_arg4) = _
  after_results

/-! ## Region 1's entry -/

theorem V5_arg0 (c : Dev nD) : V5 m ρ c main_arg0 = m ((c : Thread nD τ).loc main_arg0) :=
  ((W6_arr m ρ c 0).trans (((dat1 (V5 m ρ) c).arrAt_in 0 rfl _).trans (A_eq1 (V5 m ρ) c 0))).symm.trans (W6_main_arg0 m ρ c)

theorem V5_arg3 (c : Dev nD) : V5 m ρ c main_arg3 = m ((c : Thread nD τ).loc main_arg3) :=
  ((W6_arr m ρ c 2).trans (((dat1 (V5 m ρ) c).arrAt_in 2 rfl _).trans (A_eq1 (V5 m ρ) c 2))).symm.trans (W6_main_arg3 m ρ c)

theorem V5_arg5 (c : Dev nD) : V5 m ρ c main_arg5 = m ((c : Thread nD τ).loc main_arg5) :=
  ((W6_arr m ρ c 5).trans (((dat1 (V5 m ρ) c).arrAt_in 5 rfl _).trans (A_eq1 (V5 m ρ) c 5))).symm.trans (W6_main_arg5 m ρ c)

set_option maxHeartbeats 4000000 in
/-- The aggregate region 1 reads is the reference's chain `agg` of the whole product and the edge list. -/
theorem V5_v43 (c : Dev nD) :
    V5 m ρ c main_v43 = Cert.ReferenceIdeal.RefVal.agg
      (proj (m ((c : Thread nD τ).loc main_arg0)) (m ((c : Thread nD τ).loc main_arg2))) (m ((c : Thread nD τ).loc main_arg1)) := by
  show StableHlo.after hostOps1 (W4 m ρ c) (Proc.devRef .tc main_v43) = _
  after_results_simp
  rw [W4_v3, W4_v6, W4_v29, show W4 m ρ c (Proc.devRef .tc main_v30) = _ from V4_v30 m ρ c]
  rfl

/-- The upper half of the last weight: rows 0…127. -/
theorem V5_v44 (c : Dev nD) :
    V5 m ρ c main_v44 = extractStridedSlice S128x2 ![0, 0] (m ((c : Thread nD τ).loc main_arg4)) slices_S256x2_S128x2_0_0 := by
  show StableHlo.after hostOps1 (W4 m ρ c) (Proc.devRef .tc main_v44) = _
  after_results
  rw [W4_arg4]

/-- The lower half of the last weight: rows 128…255. -/
theorem V5_v45 (c : Dev nD) :
    V5 m ρ c main_v45 = extractStridedSlice S128x2 ![128, 0] (m ((c : Thread nD τ).loc main_arg4)) slices_S256x2_S128x2_128_0 := by
  show StableHlo.after hostOps1 (W4 m ρ c) (Proc.devRef .tc main_v45) = _
  after_results
  rw [W4_arg4]

/-! ## The last weight's two halves, read at an index -/

/-- Row k of the upper half is row k of the whole weight. -/
theorem slice_lo (x4 : Vec Ideal S256x2 .f32) (k : Fin 128) (q : Fin 2) :
    extractStridedSlice S128x2 ![0, 0] x4 slices_S256x2_S128x2_0_0 (ix2 k q)
      = x4 (ix2 (⟨k.val, Nat.lt_of_lt_of_le k.isLt (by decide)⟩ : Fin 256) q) :=
  extractStridedSlice_apply ![0, 0] x4 slices_S256x2_S128x2_0_0 (ix2 k q)
    (ix2 (⟨k.val, Nat.lt_of_lt_of_le k.isLt (by decide)⟩ : Fin 256) q) (fun a => match a with
      | ⟨0, _⟩ => by show k.val = 0 + k.val; omega
      | ⟨1, _⟩ => by show q.val = 0 + q.val; omega)

/-- Row k of the lower half is row 128 + k of the whole weight. -/
theorem slice_hi (x4 : Vec Ideal S256x2 .f32) (k : Fin 128) (q : Fin 2) :
    extractStridedSlice S128x2 ![128, 0] x4 slices_S256x2_S128x2_128_0 (ix2 k q)
      = x4 (ix2 (⟨128 + k.val, by have := k.isLt; omega⟩ : Fin 256) q) :=
  extractStridedSlice_apply ![128, 0] x4 slices_S256x2_S128x2_128_0 (ix2 k q)
    (ix2 (⟨128 + k.val, by have := k.isLt; omega⟩ : Fin 256) q) (fun a => match a with
      | ⟨0, _⟩ => by show 128 + k.val = 128 + k.val; rfl
      | ⟨1, _⟩ => by show q.val = 0 + q.val; omega)

/-! ## The result -/

/-- THE KERNEL'S RESULT BUFFER after the run: the specification's output of the launch arrays, the aggregate being
    the shared chain of the whole product, the last weight's halves its two row slices. -/
theorem W6_v46 (c : Dev nD) :
    W6 m ρ c (Proc.devRef .tc main_v46)
      = outOf (m ((c : Thread nD τ).loc main_arg0))
          (Cert.ReferenceIdeal.RefVal.agg (proj (m ((c : Thread nD τ).loc main_arg0)) (m ((c : Thread nD τ).loc main_arg2)))
            (m ((c : Thread nD τ).loc main_arg1)))
          (m ((c : Thread nD τ).loc main_arg3))
          (extractStridedSlice S128x2 ![0, 0] (m ((c : Thread nD τ).loc main_arg4)) slices_S256x2_S128x2_0_0)
          (extractStridedSlice S128x2 ![128, 0] (m ((c : Thread nD τ).loc main_arg4)) slices_S256x2_S128x2_128_0)
          (m ((c : Thread nD τ).loc main_arg5)) := by
  refine (W6_arr m ρ c 6).trans ((final1 (V5 m ρ) c).trans ?_)
  rw [V5_arg0, V5_v43, V5_arg3, V5_v44, V5_v45, V5_arg5]

end Cert.KernelIdeal.Val

end
-- ==== Proof.lean ====
/-
  The kernel and its reference compute one function of the arguments over the extended reals.

  Both programs are a two-layer graph classifier: project the features (x · W1), aggregate the projected rows
  over the edge list with self loops and symmetric degree normalisation, add the hidden bias and rectify, then
  apply the last weight to the features and the hidden layer side by side and add the output bias.

  They differ in two places only. The kernel computes x · W1 in a row-blocked kernel with both operands narrowed to
  bf16 and a zero accumulator; over the extended reals a change of float format is the identity and the accumulator
  is the zero word, so the blocks assemble to the plain product the reference's `dot_general` is. And where the
  reference concatenates [x, h] and multiplies by the whole 256×2 weight, the kernel multiplies x by the weight's
  upper 128 rows and h by its lower 128 rows and adds: a sum over 256 split into its two halves, which needs only
  that addition is commutative and associative — true on the extended reals at the infinities as well — so the
  finiteness of the inputs is never used.

  Everything between the two places — the gathers, the per-edge scaling, the scatter-adds, out-of-range edge
  indices included — is the same chain of operations in both programs, applied to the same product; it is carried as
  one function and never opened.

  The three frames: the two kernel programs' are generated whole; the reference's is its run with the result
  dropped. The idealization rewrote no operation, so `preserves` asks nothing.
-/
import proofs.«112632_j16999480558341_1_alg».proof.Defs
import proofs.«112632_j16999480558341_1_alg».proof.Proof.Gen.Kernel
import proofs.«112632_j16999480558341_1_alg».proof.Proof.Gen.Kernel.Skeleton
import proofs.«112632_j16999480558341_1_alg».proof.Proof.Gen.Kernel.Launch
import proofs.«112632_j16999480558341_1_alg».proof.Proof.Gen.Kernel.Points
import proofs.«112632_j16999480558341_1_alg».proof.Proof.Gen.Kernel.Frame
import proofs.«112632_j16999480558341_1_alg».proof.Proof.Gen.KernelIdeal
import proofs.«112632_j16999480558341_1_alg».proof.Proof.Gen.KernelIdeal.Skeleton
import proofs.«112632_j16999480558341_1_alg».proof.Proof.Gen.KernelIdeal.Launch
import proofs.«112632_j16999480558341_1_alg».proof.Proof.Gen.KernelIdeal.Points
import proofs.«112632_j16999480558341_1_alg».proof.Proof.Gen.KernelIdeal.Frame
import proofs.«112632_j16999480558341_1_alg».proof.Proof.Gen.ReferenceIdeal
import proofs.«112632_j16999480558341_1_alg».proof.Proof.Gen.Pre_finite_inputs
import proofs.«112632_j16999480558341_1_alg».proof.Proof.RefRun
import proofs.«112632_j16999480558341_1_alg».proof.Proof.RefRead
import proofs.«112632_j16999480558341_1_alg».proof.Proof.RefValue
import proofs.«112632_j16999480558341_1_alg».proof.Proof.ValueRun
import proofs.«112632_j16999480558341_1_alg».proof.Proof.HostChain
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories agreeing on the arguments both programs end with the classifier's output of those arguments:
    the kernel's result buffer by the fold through its two regions, the reference's by its run read stage by stage. -/
theorem algebraic : Cert.algebraic_KernelIdeal_ReferenceIdeal := by
  intro m ρ m' ρ' _ hagree
  refine ⟨fun c => Cert.Spec.outOf (m ((c.tc : Thread Cert.KernelIdeal.nD Cert.KernelIdeal.τ).loc Cert.KernelIdeal.main_arg0))
      (Cert.ReferenceIdeal.RefVal.agg
        (Cert.Spec.proj (m ((c.tc : Thread Cert.KernelIdeal.nD Cert.KernelIdeal.τ).loc Cert.KernelIdeal.main_arg0))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg3))
      (extractStridedSlice Cert.KernelIdeal.S128x2 ![0, 0]
        (m ((c.tc : Thread Cert.KernelIdeal.nD Cert.KernelIdeal.τ).loc Cert.KernelIdeal.main_arg4)) Cert.KernelIdeal.Gen.slices_S256x2_S128x2_0_0)
      (extractStridedSlice Cert.KernelIdeal.S128x2 ![128, 0]
        (m ((c.tc : Thread Cert.KernelIdeal.nD Cert.KernelIdeal.τ).loc Cert.KernelIdeal.main_arg4)) Cert.KernelIdeal.Gen.slices_S256x2_S128x2_128_0)
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Val.W6_v46 m ρ c), (h c).2⟩)
      (Cert.KernelIdeal.GenV.run_named (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v52_eq, (hagree c).1, (hagree c).2.1, (hagree c).2.2.1, (hagree c).2.2.2.1,
      (hagree c).2.2.2.2.1, (hagree c).2.2.2.2.2]
    exact Cert.ReferenceIdeal.RefVal.out_eq _ _ _ _ _ _ _ _
      (Cert.KernelIdeal.Val.slice_lo _) (Cert.KernelIdeal.Val.slice_hi _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
